-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4 : Shape := ⟨2, ![1048576, 4]⟩
abbrev S_ : Shape := ⟨0, ![]⟩

class Facts : Prop where
  bcast_S_S1048576x4 : S_.BroadcastsInDim S1048576x4 (![] : Fin 0 → Fin S1048576x4.rank)
  reducesTo_S1048576x4_S_d0_1 : S1048576x4.ReducesTo [0, 1] S_
  h_S_ : 0 < S_.numel

variable [Facts]

def fn {F : FTy → Type} [FloatOps F] (main_arg0 : FVec F S1048576x4 .f32) : IVec S_ 1 :=
  let main_v0 : FVec F S1048576x4 .f32 := Host.absf main_arg0
  let main_cst : FVec F S_ .f32 := constant S_ .f32 0x7F800000#32
  let main_v1 : FVec F S1048576x4 .f32 := broadcastInDim S1048576x4 ![] bcast_S_S1048576x4 main_cst
  let main_v2 : IVec S1048576x4 1 := cmpf .olt main_v0 main_v1
  let main_c : IVec S_ 1 := constantI S_ 1 1#1
  let main_v3 : IVec S_ 1 := (fun x v => Host.reduce IntOp.andi x v reducesTo_S1048576x4_S_d0_1 h_S_) main_v2 main_c
  main_v3
-- ==== Kernel.lean ====
abbrev S1048576x4 : Shape := ⟨2, ![1048576, 4]⟩
abbrev S16384x4 : Shape := ⟨2, ![16384, 4]⟩
abbrev S16384x1 : Shape := ⟨2, ![16384, 1]⟩

abbrev nBuf : Space → Nat
  | .hbm => 2
  | .vmem => 4
  | .smem => 0
  | _ => 0

abbrev bufTy : (tb : Table) → Fin (tcTables nBuf tb) → BufTy
  | .hbm, ⟨0, _⟩ => ⟨S1048576x4, .f32⟩
  | .hbm, ⟨1, _⟩ => ⟨S1048576x4, .f32⟩
  | .local _ .vmem, ⟨0, _⟩ => ⟨S16384x4, .f32⟩
  | .local _ .vmem, ⟨1, _⟩ => ⟨S16384x4, .f32⟩
  | .local _ .vmem, ⟨2, _⟩ => ⟨S16384x4, .f32⟩
  | .local _ .vmem, ⟨3, _⟩ => ⟨S16384x4, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16384x4_S16384x4_0_0 : ∀ a, (![0, 0] : Fin 2 → Nat) a + S16384x4.size a ≤ S16384x4.size a
  h_S16384x4 : 0 < S16384x4.numel
  slices_S16384x4_o0_0_S16384x1 : S16384x4.Slices ![0, 0] S16384x1
  slices_S16384x4_o0_1_S16384x1 : S16384x4.Slices ![0, 1] S16384x1
  slices_S16384x4_o0_2_S16384x1 : S16384x4.Slices ![0, 2] S16384x1
  slices_S16384x4_o0_3_S16384x1 : S16384x4.Slices ![0, 3] S16384x1
  concatenates_S16384x1_S16384x1_S16384x1_S16384x1_S16384x4_d1 : Shape.Concatenates [S16384x1, S16384x1, S16384x1, S16384x1] S16384x4 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x4.size a ≤ S1048576x4.size a
  hwx0_0 : ∀ i : grid0.Coords, EltTy.bits .f32 = 32 ∨ (Rect.block (s := S1048576x4) S16384x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x4.size a ≤ S1048576x4.size a
  hwx0_1 : ∀ i : grid0.Coords, EltTy.bits .f32 = 32 ∨ (Rect.block (s := S1048576x4) S16384x4.size (cc0_transform_1 i) (hinb0_1 i)).WholeWords (EltTy.packing .f32)

variable [Facts₀]

abbrev win0_0 : Pipeline.Window sig grid0 :=
  Pipeline.Window.ofSpec (Memref.whole main_arg0) S16384x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1048576x4 : Shape := ⟨2, ![1048576, 4]⟩
abbrev S16 : Shape := ⟨1, ![16]⟩
abbrev S16x4 : Shape := ⟨2, ![16, 4]⟩
abbrev S_ : Shape := ⟨0, ![]⟩
abbrev S1048576x1 : Shape := ⟨2, ![1048576, 1]⟩
abbrev S1048576 : Shape := ⟨1, ![1048576]⟩
abbrev S1048576x2 : Shape := ⟨2, ![1048576, 2]⟩
abbrev S1048576x1x1 : Shape := ⟨3, ![1048576, 1, 1]⟩
abbrev S1048576x1x2 : Shape := ⟨3, ![1048576, 1, 2]⟩
abbrev S1048576x2x1 : Shape := ⟨3, ![1048576, 2, 1]⟩
abbrev S1048576x2x2 : Shape := ⟨3, ![1048576, 2, 2]⟩
abbrev S1048576x4x1 : Shape := ⟨3, ![1048576, 4, 1]⟩
abbrev S1048576x4x2 : Shape := ⟨3, ![1048576, 4, 2]⟩
abbrev S1048576x8 : Shape := ⟨2, ![1048576, 8]⟩
abbrev S1048576x8x1 : Shape := ⟨3, ![1048576, 8, 1]⟩
abbrev S1048576x8x2 : Shape := ⟨3, ![1048576, 8, 2]⟩
abbrev S1048576x16 : Shape := ⟨2, ![1048576, 16]⟩
abbrev S16x1 : Shape := ⟨2, ![16, 1]⟩

abbrev nBuf : Space → Nat
  | .hbm => 75
  | .vmem => 0
  | .smem => 0
  | _ => 0

abbrev bufTy : (tb : Table) → Fin (tcTables nBuf tb) → BufTy
  | .hbm, ⟨0, _⟩ => ⟨S1048576x4, .f32⟩
  | .hbm, ⟨1, _⟩ => ⟨S16, .i32⟩
  | .hbm, ⟨2, _⟩ => ⟨S16x4, .f32⟩
  | .hbm, ⟨3, _⟩ => ⟨S_, .f32⟩
  | .hbm, ⟨4, _⟩ => ⟨S1048576x4, .f32⟩
  | .hbm, ⟨5, _⟩ => ⟨S1048576x4, .f32⟩
  | .hbm, ⟨6, _⟩ => ⟨S_, .f32⟩
  | .hbm, ⟨7, _⟩ => ⟨S1048576x4, .f32⟩
  | .hbm, ⟨8, _⟩ => ⟨S1048576x4, .f32⟩
  | .hbm, ⟨9, _⟩ => ⟨S1048576x4, .f32⟩
  | .hbm, ⟨10, _⟩ => ⟨S1048576x4, .f32⟩
  | .hbm, ⟨11, _⟩ => ⟨S_, .f32⟩
  | .hbm, ⟨12, _⟩ => ⟨S1048576x1, .f32⟩
  | .hbm, ⟨13, _⟩ => ⟨S1048576x1, .f32⟩
  | .hbm, ⟨14, _⟩ => ⟨S1048576, .f32⟩
  | .hbm, ⟨15, _⟩ => ⟨S1048576x1, .f32⟩
  | .hbm, ⟨16, _⟩ => ⟨S1048576, .f32⟩
  | .hbm, ⟨17, _⟩ => ⟨S1048576x1, .f32⟩
  | .hbm, ⟨18, _⟩ => ⟨S1048576x1, .f32⟩
  | .hbm, ⟨19, _⟩ => ⟨S1048576x2, .f32⟩
  | .hbm, ⟨20, _⟩ => ⟨S1048576x1x1, .f32⟩
  | .hbm, ⟨21, _⟩ => ⟨S1048576x1x2, .f32⟩
  | .hbm, ⟨22, _⟩ => ⟨S1048576x1x2, .f32⟩
  | .hbm, ⟨23, _⟩ => ⟨S1048576x1x2, .f32⟩
  | .hbm, ⟨24, _⟩ => ⟨S1048576x2, .f32⟩
  | .hbm, ⟨25, _⟩ => ⟨S1048576x1, .f32⟩
  | .hbm, ⟨26, _⟩ => ⟨S1048576, .f32⟩
  | .hbm, ⟨27, _⟩ => ⟨S1048576x1, .f32⟩
  | .hbm, ⟨28, _⟩ => ⟨S1048576, .f32⟩
  | .hbm, ⟨29, _⟩ => ⟨S1048576x1, .f32⟩
  | .hbm, ⟨30, _⟩ => ⟨S1048576x1, .f32⟩
  | .hbm, ⟨31, _⟩ => ⟨S1048576x2, .f32⟩
  | .hbm, ⟨32, _⟩ => ⟨S1048576x2x1, .f32⟩
  | .hbm, ⟨33, _⟩ => ⟨S1048576x1x2, .f32⟩
  | .hbm, ⟨34, _⟩ => ⟨S1048576x2x2, .f32⟩
  | .hbm, ⟨35, _⟩ => ⟨S1048576x2x2, .f32⟩
  | .hbm, ⟨36, _⟩ => ⟨S1048576x2x2, .f32⟩
  | .hbm, ⟨37, _⟩ => ⟨S1048576x4, .f32⟩
  | .hbm, ⟨38, _⟩ => ⟨S1048576x1, .f32⟩
  | .hbm, ⟨39, _⟩ => ⟨S1048576, .f32⟩
  | .hbm, ⟨40, _⟩ => ⟨S1048576x1, .f32⟩
  | .hbm, ⟨41, _⟩ => ⟨S1048576, .f32⟩
  | .hbm, ⟨42, _⟩ => ⟨S1048576x1, .f32⟩
  | .hbm, ⟨43, _⟩ => ⟨S1048576x1, .f32⟩
  | .hbm, ⟨44, _⟩ => ⟨S1048576x2, .f32⟩
  | .hbm, ⟨45, _⟩ => ⟨S1048576x4x1, .f32⟩
  | .hbm, ⟨46, _⟩ => ⟨S1048576x1x2, .f32⟩
  | .hbm, ⟨47, _⟩ => ⟨S1048576x4x2, .f32⟩
  | .hbm, ⟨48, _⟩ => ⟨S1048576x4x2, .f32⟩
  | .hbm, ⟨49, _⟩ => ⟨S1048576x4x2, .f32⟩
  | .hbm, ⟨50, _⟩ => ⟨S1048576x8, .f32⟩
  | .hbm, ⟨51, _⟩ => ⟨S1048576x1, .f32⟩
  | .hbm, ⟨52, _⟩ => ⟨S1048576, .f32⟩
  | .hbm, ⟨53, _⟩ => ⟨S1048576x1, .f32⟩
  | .hbm, ⟨54, _⟩ => ⟨S1048576, .f32⟩
  | .hbm, ⟨55, _⟩ => ⟨S1048576x1, .f32⟩
  | .hbm, ⟨56, _⟩ => ⟨S1048576x1, .f32⟩
  | .hbm, ⟨57, _⟩ => ⟨S1048576x2, .f32⟩
  | .hbm, ⟨58, _⟩ => ⟨S1048576x8x1, .f32⟩
  | .hbm, ⟨59, _⟩ => ⟨S1048576x1x2, .f32⟩
  | .hbm, ⟨60, _⟩ => ⟨S1048576x8x2, .f32⟩
  | .hbm, ⟨61, _⟩ => ⟨S1048576x8x2, .f32⟩
  | .hbm, ⟨62, _⟩ => ⟨S1048576x8x2, .f32⟩
  | .hbm, ⟨63, _⟩ => ⟨S1048576x16, .f32⟩
  | .hbm, ⟨64, _⟩ => ⟨S_, .i32⟩
  | .hbm, ⟨65, _⟩ => ⟨S16, .i32⟩
  | .hbm, ⟨66, _⟩ => ⟨S16, .i1⟩
  | .hbm, ⟨67, _⟩ => ⟨S_, .i32⟩
  | .hbm, ⟨68, _⟩ => ⟨S16, .i32⟩
  | .hbm, ⟨69, _⟩ => ⟨S16, .i32⟩
  | .hbm, ⟨70, _⟩ => ⟨S16, .i32⟩
  | .hbm, ⟨71, _⟩ => ⟨S16x1, .i32⟩
  | .hbm, ⟨72, _⟩ => ⟨S1048576x16, .f32⟩
  | .hbm, ⟨73, _⟩ => ⟨S1048576x16, .f32⟩
  | .hbm, ⟨74, _⟩ => ⟨S1048576x4, .f32⟩
  | _, _ => ⟨S1048576x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_c_3 : Ref sig .tc := ⟨.hbm, 64, rfl⟩
abbrev main_v58 : Ref sig .tc := ⟨.hbm, 65, rfl⟩
abbrev main_v59 : Ref sig .tc := ⟨.hbm, 66, rfl⟩
abbrev main_c_4 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩

abbrev nD : Nat := 1
abbrev τ : Topo := Topo.v7x

variable {F : FTy → Type} [FloatOps F]

class Facts₀ : Prop where
  bcast_S_S1048576x4 : S_.BroadcastsInDim S1048576x4 (![] : Fin 0 → Fin S1048576x4.rank)
  bcast_S_S1048576x1 : S_.BroadcastsInDim S1048576x1 (![] : Fin 0 → Fin S1048576x1.rank)
  slices_S1048576x4_S1048576x1_0_0 : S1048576x4.Slices ![0, 0] S1048576x1
  shapeCasts_S1048576x1_S1048576 : S1048576x1.ShapeCasts S1048576
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S1048576x1_S1048576x1x1_0_1 : S1048576x1.BroadcastsInDim S1048576x1x1 (![0, 1] : Fin 2 → Fin S1048576x1x1.rank)
  bcast_S1048576x2_S1048576x1x2_0_2 : S1048576x2.BroadcastsInDim S1048576x1x2 (![0, 2] : Fin 2 → Fin S1048576x1x2.rank)
  bcast_S1048576x1x1_S1048576x1x2_0_1_2 : S1048576x1x1.BroadcastsInDim S1048576x1x2 (![0, 1, 2] : Fin 3 → Fin S1048576x1x2.rank)
  shapeCasts_S1048576x1x2_S1048576x2 : S1048576x1x2.ShapeCasts S1048576x2
  slices_S1048576x4_S1048576x1_0_1 : S1048576x4.Slices ![0, 1] S1048576x1
  bcast_S1048576x2_S1048576x2x1_0_1 : S1048576x2.BroadcastsInDim S1048576x2x1 (![0, 1] : Fin 2 → Fin S1048576x2x1.rank)
  bcast_S1048576x2x1_S1048576x2x2_0_1_2 : S1048576x2x1.BroadcastsInDim S1048576x2x2 (![0, 1, 2] : Fin 3 → Fin S1048576x2x2.rank)
  bcast_S1048576x1x2_S1048576x2x2_0_1_2 : S1048576x1x2.BroadcastsInDim S1048576x2x2 (![0, 1, 2] : Fin 3 → Fin S1048576x2x2.rank)
  shapeCasts_S1048576x2x2_S1048576x4 : S1048576x2x2.ShapeCasts S1048576x4
  slices_S1048576x4_S1048576x1_0_2 : S1048576x4.Slices ![0, 2] S1048576x1
  bcast_S1048576x4_S1048576x4x1_0_1 : S1048576x4.BroadcastsInDim S1048576x4x1 (![0, 1] : Fin 2 → Fin S1048576x4x1.rank)
  bcast_S1048576x4x1_S1048576x4x2_0_1_2 : S1048576x4x1.BroadcastsInDim S1048576x4x2 (![0, 1, 2] : Fin 3 → Fin S1048576x4x2.rank)
  bcast_S1048576x1x2_S1048576x4x2_0_1_2 : S1048576x1x2.BroadcastsInDim S1048576x4x2 (![0, 1, 2] : Fin 3 → Fin S1048576x4x2.rank)
  shapeCasts_S1048576x4x2_S1048576x8 : S1048576x4x2.ShapeCasts S1048576x8
  slices_S1048576x4_S1048576x1_0_3 : S1048576x4.Slices ![0, 3] S1048576x1
  bcast_S1048576x8_S1048576x8x1_0_1 : S1048576x8.BroadcastsInDim S1048576x8x1 (![0, 1] : Fin 2 → Fin S1048576x8x1.rank)
  bcast_S1048576x8x1_S1048576x8x2_0_1_2 : S1048576x8x1.BroadcastsInDim S1048576x8x2 (![0, 1, 2] : Fin 3 → Fin S1048576x8x2.rank)
  bcast_S1048576x1x2_S1048576x8x2_0_1_2 : S1048576x1x2.BroadcastsInDim S1048576x8x2 (![0, 1, 2] : Fin 3 → Fin S1048576x8x2.rank)
  shapeCasts_S1048576x8x2_S1048576x16 : S1048576x8x2.ShapeCasts S1048576x16
  bcast_S_S16 : S_.BroadcastsInDim S16 (![] : Fin 0 → Fin S16.rank)
  bcast_S16_S16x1_0 : S16.BroadcastsInDim S16x1 (![0] : Fin 1 → Fin S16x1.rank)
  gather_S1048576x16_S16x1_S1048576x16_0_1_n_n_1_1_10485761_wf : GatherDims.WF S1048576x16 S16x1 S1048576x16 [0] [1] [] [1] [] 1 ![1048576, 1]
  dot_S1048576x16_S16x4_S1048576x4_1_0_0_1_n_n_wf : DotDims.WF S1048576x16 S16x4 S1048576x4 [1] [0] [0] [1] [] []

variable [Facts₀]

def gather_S1048576x16_S16x1_S1048576x16_0_1_n_n_1_1_10485761 : GatherDims S1048576x16 S16x1 S1048576x16 where
  offsetDims := [0]
  collapsedSliceDims := [1]
  operandBatchingDims := []
  startIndicesBatchingDims := []
  startIndexMap := [1]
  indexVectorDim := 1
  sliceSizes := ![1048576, 1]
  wf := gather_S1048576x16_S16x1_S1048576x16_0_1_n_n_1_1_10485761_wf
def dot_S1048576x16_S16x4_S1048576x4_1_0_0_1_n_n : DotDims S1048576x16 S16x4 S1048576x4 where
  lhsContracting := [1]
  rhsContracting := [0]
  lhsNonContracting := [0]
  rhsNonContracting := [1]
  lhsBatch := []
  rhsBatch := []
  wf := dot_S1048576x16_S16x4_S1048576x4_1_0_0_1_n_n_wf

class Facts : Prop extends Facts₀ where

variable [Facts]
-- ==== Proof.Spec.lean ====
/-
  The mathematics shared by the two programs, over plain extended reals: no program is imported here.

  One row of the input holds four angles x₀ … x₃. With c q = cos (κ · x q) and s q = sin (κ · x q) (κ the half-angle scale),
  the product state over four qubits has the sixteen amplitudes
      amp j = g₀ · g₁ · g₂ · g₃,   g q = s q if bit q of j is set (qubit 0 the most significant bit), else c q,
  the ring of controlled-NOTs permutes the basis (`perm`), the probability of basis state k is (amp (perm k))², and the
  expectation of Pauli-Z on qubit i is the signed sum  ∑ₖ ± prob k, the sign − exactly when bit i of k is set.

  The kernel spells each signed sum as a left-nested chain, a negative term as "zero minus the term", and scales the
  angle by the single number 0.785; the reference multiplies by 1.57 and then by 1/2, starts each product from 1, and
  contracts the probabilities with the table of signs ±1. The two agree on every extended real: the only laws used are
  associativity and commutativity of the product, 1 · a = a, a · 1 = a, a · (−1) = −a, 0 − a = −a, and the fact that the
  binary number 0.785 is exactly one half of the binary number 1.57 (halving changes the exponent only).
-/
import Idealize.ShloMosaic.PureOps.Ideal
import Idealize.ShloMosaic.PureOps.Ideal.Laws
import Mathlib.Algebra.BigOperators.Fin

noncomputable section

namespace Cert.Spec

open Idealize.ShloMosaic

/-! ## The literals -/

/-- The pattern of 1.0 denotes 1. -/
theorem ofBits_one : Ideal.ofBits .f32 0x3F800000#32 = 1 := by
  simp [Ideal.ofBits, Ideal.ieee, -EReal.coe_mul]; norm_num

/-- The pattern of −1.0 denotes −1. -/
theorem ofBits_neg_one : Ideal.ofBits .f32 0xBF800000#32 = -1 := by
  simp [Ideal.ofBits, Ideal.ieee, -EReal.coe_mul]; norm_num

/-- One half of the binary 1.57 is the binary 0.785: same significand, the exponent one lower. -/
theorem ofBits_half_mul :
    Ideal.ofBits .f32 0x3F000000#32 * Ideal.ofBits .f32 0x3FC8F5C3#32 = Ideal.ofBits .f32 0x3F48F5C3#32 := by
  simp [Ideal.ofBits, Ideal.ieee, -EReal.coe_mul]
  rw [← EReal.coe_mul]
  congr 1
  norm_num

/-- The reference's two scalings are the kernel's one. -/
theorem half_angle (t : EReal) :
    Ideal.ofBits .f32 0x3F000000#32 * (Ideal.ofBits .f32 0x3FC8F5C3#32 * t) = Ideal.ofBits .f32 0x3F48F5C3#32 * t := by
  rw [← mul_assoc, ofBits_half_mul]

/-! ## Sums over sixteen terms -/

/-- A sum over sixteen indices, written out from the left. -/
theorem sum16 {M : Type*} [AddCommMonoid M] (f : Fin 16 → M) :
    ∑ k, f k = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_eight]
  rfl

/-! ## The kernel's form -/

/-- Qubit q's factor: its sine when the bit is set, else its cosine. -/
def sel (c s : Fin 4 → EReal) (q : Fin 4) : Bool → EReal
  | false => c q
  | true => s q

/-- The amplitude of the basis state with bits b₀ b₁ b₂ b₃, multiplied from the left. -/
def ampB (c s : Fin 4 → EReal) (b0 b1 b2 b3 : Bool) : EReal :=
  sel c s 0 b0 * sel c s 1 b1 * sel c s 2 b2 * sel c s 3 b3

/-- The sixteen amplitudes, qubit 0 the most significant bit of the index. -/
def amp (c s : Fin 4 → EReal) : Fin 16 → EReal :=
  ![ampB c s false false false false, ampB c s false false false true, ampB c s false false true false, ampB c s false false true true,
    ampB c s false true false false, ampB c s false true false true, ampB c s false true true false, ampB c s false true true true,
    ampB c s true false false false, ampB c s true false false true, ampB c s true false true false, ampB c s true false true true,
    ampB c s true true false false, ampB c s true true false true, ampB c s true true true false, ampB c s true true true true]

/-- The basis permutation of the ring of four controlled-NOTs (0→1, 1→2, 2→3, 3→0). -/
def perm : Fin 16 → Fin 16 := ![0, 13, 3, 14, 6, 11, 5, 8, 12, 1, 15, 2, 10, 7, 9, 4]

/-- The probability of basis state k after the ring. -/
def prob (c s : Fin 4 → EReal) (k : Fin 16) : EReal := amp c s (perm k) * amp c s (perm k)

/-- ⟨Z₀⟩ as the kernel adds it up: the first eight probabilities, then "zero minus" each of the last eight. -/
def col0 (p : Fin 16 → EReal) (z : EReal) : EReal :=
  p 0 + p 1 + p 2 + p 3 + p 4 + p 5 + p 6 + p 7 + (z - p 8) + (z - p 9) + (z - p 10) + (z - p 11) + (z - p 12) + (z - p 13) + (z - p 14) + (z - p 15)

/-- ⟨Z₁⟩ as the kernel adds it up. -/
def col1 (p : Fin 16 → EReal) (z : EReal) : EReal :=
  p 0 + p 1 + p 2 + p 3 + (z - p 4) + (z - p 5) + (z - p 6) + (z - p 7) + p 8 + p 9 + p 10 + p 11 + (z - p 12) + (z - p 13) + (z - p 14) + (z - p 15)

/-- ⟨Z₂⟩ as the kernel adds it up. -/
def col2 (p : Fin 16 → EReal) (z : EReal) : EReal :=
  p 0 + p 1 + (z - p 2) + (z - p 3) + p 4 + p 5 + (z - p 6) + (z - p 7) + p 8 + p 9 + (z - p 10) + (z - p 11) + p 12 + p 13 + (z - p 14) + (z - p 15)

/-- ⟨Z₃⟩ as the kernel adds it up. -/
def col3 (p : Fin 16 → EReal) (z : EReal) : EReal :=
  p 0 + (z - p 1) + p 2 + (z - p 3) + p 4 + (z - p 5) + p 6 + (z - p 7) + p 8 + (z - p 9) + p 10 + (z - p 11) + p 12 + (z - p 13) + p 14 + (z - p 15)

/-- The four expectation values of one row, as the kernel computes them from the row's four angles. -/
def kerRow (x : Fin 4 → EReal) : Fin 4 → EReal :=
  let c : Fin 4 → EReal := fun q => Ideal.cos (Ideal.ofBits .f32 0x3F48F5C3#32 * x q)
  let s : Fin 4 → EReal := fun q => Ideal.sin (Ideal.ofBits .f32 0x3F48F5C3#32 * x q)
  let z : EReal := Ideal.ofBits .f32 0x00000000#32
  ![col0 (prob c s) z, col1 (prob c s) z, col2 (prob c s) z, col3 (prob c s) z]

/-! ## The reference's form -/

/-- The sign of basis state k under Pauli-Z on qubit i: −1 when bit i of k is set (qubit 0 the most significant). -/
def zsign (k : Fin 16) (i : Fin 4) : EReal := if (k.val / 2 ^ (3 - i.val)) % 2 = 0 then 1 else -1

/-- The reference's amplitudes over the first qubit, from the factors `pr q d` (d = 0 the cosine, 1 the sine). -/
def refA1 (pr : Fin 4 → Fin 2 → EReal) (j : Fin 2) : EReal := Ideal.ofBits .f32 0x3F800000#32 * pr 0 j

/-- … over the first two qubits: the last bit of the index picks qubit 1's factor. -/
def refA2 (pr : Fin 4 → Fin 2 → EReal) (j : Fin 4) : EReal :=
  refA1 pr ⟨j.val / 2, by omega⟩ * pr 1 ⟨j.val % 2, by omega⟩

/-- … over the first three qubits. -/
def refA3 (pr : Fin 4 → Fin 2 → EReal) (j : Fin 8) : EReal :=
  refA2 pr ⟨j.val / 2, by omega⟩ * pr 2 ⟨j.val % 2, by omega⟩

/-- … over all four qubits. -/
def refA4 (pr : Fin 4 → Fin 2 → EReal) (j : Fin 16) : EReal :=
  refA3 pr ⟨j.val / 2, by omega⟩ * pr 3 ⟨j.val % 2, by omega⟩

/-- The reference's factors from a row's angles: scale by 1.57, then by one half, then cosine or sine. -/
def refPr (x : Fin 4 → EReal) (q : Fin 4) (d : Fin 2) : EReal :=
  if d.val = 0 then Ideal.cos (Ideal.ofBits .f32 0x3F000000#32 * (Ideal.ofBits .f32 0x3FC8F5C3#32 * x q))
  else Ideal.sin (Ideal.ofBits .f32 0x3F000000#32 * (Ideal.ofBits .f32 0x3FC8F5C3#32 * x q))

/-- The reference's expectation values of one row: the permuted amplitudes squared, contracted with the signs. -/
def refRow (x : Fin 4 → EReal) (i : Fin 4) : EReal :=
  ∑ k : Fin 16, (refA4 (refPr x) (perm k) * refA4 (refPr x) (perm k)) * zsign k i

/-! ## The two forms agree -/

/-- The reference's nested product, started from 1, is the kernel's product of the four factors. -/
theorem refA4_eq (x : Fin 4 → EReal) (j : Fin 16) :
    refA4 (refPr x) j
      = amp (fun q => Ideal.cos (Ideal.ofBits .f32 0x3F48F5C3#32 * x q)) (fun q => Ideal.sin (Ideal.ofBits .f32 0x3F48F5C3#32 * x q)) j := by
  fin_cases j <;>
    simp [refA4, refA3, refA2, refA1, refPr, amp, ampB, sel, ofBits_one, half_angle]

/-- The signed sums agree, column by column. -/
theorem refRow_eq_kerRow (x : Fin 4 → EReal) (i : Fin 4) : refRow x i = kerRow x i := by
  unfold refRow
  simp only [refA4_eq]
  rw [sum16]
  fin_cases i <;>
    simp [kerRow, col0, col1, col2, col3, prob, zsign, Ideal.ofBits_zero_f32, sub_eq_add_neg]

end Cert.Spec

end
-- ==== Proof.KernelValue.lean ====
/-
  What the idealized kernel leaves in its result array, as one function of the argument array.

  The grid has 64 points; point t stages rows 16384·t … 16384·t + 16383 of the input (all four columns) and writes back
  the same rows of the output. The body works row by row: entry (r, n) of the output block is the n-th expectation value
  `Cert.Spec.kerRow` of the four angles in row r of the input block — the body's slices pick the four columns, its
  products, squares and signed sums are entry-wise, and its final concatenation puts value n in column n.
  Hence the whole result array is `G`: entry (b, n) is `kerRow` of row b of the argument, at n; the 64 blocks tile the
  array (row b lies in block b / 16384), so nothing else survives.
-/
import proofs.«148952_j23115513987349_1_alg».proof.Proof.Gen.KernelIdeal.Value
import proofs.«148952_j23115513987349_1_alg».proof.Proof.Spec
import Idealize.ShloMosaic.Lib.ValueIdx
import Idealize.ShloMosaic.Lib.Pipeline.Value

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

/-! ## One block: entry (r, n) is the n-th expectation value of row r -/

theorem cos_apply {s : Shape} {φ : FTy} (a : FVec Ideal s φ) (i : s.Idx) : cos a i = Ideal.cos (a i) := rfl
theorem sin_apply {s : Shape} {φ : FTy} (a : FVec Ideal s φ) (i : s.Idx) : sin a i = Ideal.sin (a i) := rfl

/-- Column k of a block, as a one-column block, read at row j: the block at (j, k). -/
theorem slice_col (k : Nat) (hk : k < 4) (v : FVec Ideal S16384x4 .f32) (h : S16384x4.Slices ![0, k] S16384x1) (j : S16384x1.Idx) :
    extractStridedSlice S16384x1 ![0, k] v h j = v (ix2 ⟨(j 0).val, idx2_lt0 j⟩ ⟨k, hk⟩) :=
  extractStridedSlice_apply ![0, k] v h j _ fun a => by
    match a with
    | ⟨0, _⟩ => show (j 0).val = 0 + (j 0).val; omega
    | ⟨1, _⟩ =>
      have h1 : (j 1).val < 1 := (j 1).isLt
      show k = k + (j 1).val; omega

/-- Entry (r, n) of the block the body leaves is the n-th expectation value of the four angles in row r of the input block. -/
theorem block_eq (P0 : Vec Ideal S16384x4 .f32) (r : Fin 16384) (n : Fin 4) :
    Value.E1 (F := Ideal) P0 (ix2 r n) = Cert.Spec.kerRow (fun q => P0 (ix2 r q)) n := by
  fin_cases n
  all_goals
    show (Value.Cat1_0 (F := Ideal) P0 _) (Value.ix1_0 _) = _
    simp only [Value.Cat1_0, addf_apply, mulf_apply, subf_apply, cos_apply, sin_apply, broadcast_apply,
      slice_col 0 (by omega), slice_col 1 (by omega), slice_col 2 (by omega), slice_col 3 (by omega)]
    rfl

/-! ## From blocks to the array -/

variable (m : (ℓ : Loc nD τ sig) → Buf (Elt Ideal) ℓ) (ρ : Dev nD → PrngReg)

/-- The result array as a function of the argument array: entry (b, n) is the n-th expectation value of row b. -/
def G (X : S1048576x4.Idx → EReal) : S1048576x4.Idx → EReal := fun i =>
  Cert.Spec.kerRow (fun q => X (ix2 ⟨(i 0).val, idx2_lt0 i⟩ q)) ⟨(i 1).val, idx2_lt1 i⟩

theorem hz : (![0, 0] : Fin 2 → Nat) = fun _ => 0 := funext fun a => by fin_cases a <;> rfl

/-- The two windows move together: at point t both stage block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of `G` of the argument array. -/
theorem flushed_eq (c : Dev nD) (t : Fin cfg0.N) :
    (dats m 0 c).flushed 1 t = ((cfg0.win 1).blk t).view.read (Elt Ideal) (G (V m c main_arg0)) := by
  rw [Value.flushed1]
  unfold out0_1
  simp only [View.ld_unit_zero (S := S16384x4) hz]
  obtain ⟨e0, e1, e2, e3⟩ := idx_facts t
  funext j
  obtain ⟨r, n, rfl⟩ : ∃ (r : Fin 16384) (n : Fin 4), j = ix2 r n := ⟨j 0, j 1, eq_ix2 j⟩
  refine (Value.canon1_eq (F := Ideal) (iblk m c 0 t) (ix2 r n)).trans ?_
  refine (block_eq (iblk m c 0 t) r n).trans ?_
  show Cert.Spec.kerRow (fun q => V m c main_arg0 (((cfg0.win 0).blk t).view.emb (ix2 r q))) n
    = Cert.Spec.kerRow (fun q => V m c main_arg0 (ix2 ⟨((((cfg0.win 1).blk t).view.emb (ix2 r n)) 0).val, _⟩ q))
        ⟨((((cfg0.win 1).blk t).view.emb (ix2 r n)) 1).val, _⟩
  have hfun : (fun q : Fin 4 => V m c main_arg0 (((cfg0.win 0).blk t).view.emb (ix2 r q)))
      = (fun q : Fin 4 => V m c main_arg0 (ix2 ⟨((((cfg0.win 1).blk t).view.emb (ix2 r n)) 0).val, idx2_lt0 _⟩ q)) := by
    funext q
    refine congrArg (V m c main_arg0) ?_
    funext a; apply Fin.ext
    match a with
    | ⟨0, _⟩ =>
      show win0_0.index t (0 : Fin 2) * 16384 + 1 * r.val = win0_1.index t (0 : Fin 2) * 16384 + 1 * r.val
      omega
    | ⟨1, _⟩ =>
      show win0_0.index t (1 : Fin 2) * 4 + 1 * q.val = q.val
      omega
  have hn : n = ⟨((((cfg0.win 1).blk t).view.emb (ix2 r n)) 1).val, idx2_lt1 _⟩ := by
    apply Fin.ext
    show n.val = win0_1.index t (1 : Fin 2) * 4 + 1 * n.val
    omega
  exact congr (congrArg Cert.Spec.kerRow hfun) hn

/-- An index of the array is in point t's block iff each coordinate is in the block's range on its axis. -/
theorem mem_blk (t : Fin cfg0.N) (i : S1048576x4.Idx) :
    i ∈ ((cfg0.win 1).blk t).view.set ↔ ∀ a : Fin 2, win0_1.index t a * S16384x4.size a ≤ (i a).val ∧ (i a).val < win0_1.index t a * S16384x4.size a + S16384x4.size a := by
  show i ∈ ((View.whole main_v0).slice (win0_1.rect t)).set ↔ _
  rw [View.set_slice_whole, Rect.mem_set_unit]
  exact Iff.rfl

/-- Every index of the array lies in some point's block: row b in the block of point b / 16384. -/
theorem cover (i : S1048576x4.Idx) : ∃ t : Fin cfg0.N, (cfg0.win 1).flush t = true ∧ i ∈ ((cfg0.win 1).blk t).view.set := by
  have hi0 : (i 0).val < 1048576 := (i 0).isLt
  have hi1 : (i 1).val < 4 := (i 1).isLt
  let t : Fin cfg0.N := ⟨(i 0).val / 16384, by show (i 0).val / 16384 < 64; omega⟩
  obtain ⟨e0, e1, e2, e3⟩ := idx_facts t
  have ht : t.val = (i 0).val / 16384 := rfl
  refine ⟨t, flush0_1 t, ?_⟩
  rw [mem_blk]
  intro a
  match a with
  | ⟨0, _⟩ => show win0_1.index t (0 : Fin 2) * 16384 ≤ (i 0).val ∧ (i 0).val < win0_1.index t (0 : Fin 2) * 16384 + 16384; omega
  | ⟨1, _⟩ => show win0_1.index t (1 : Fin 2) * 4 ≤ (i 1).val ∧ (i 1).val < win0_1.index t (1 : Fin 2) * 4 + 4; omega

/-- The result array after the run is `G` of the argument array as launched. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- Every weakly fair execution of the idealized kernel ends with the result array at `G` of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KerValue

end
-- ==== Proof.RefOps.lean ====
import proofs.«148952_j23115513987349_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's host operations, in program order. -/
abbrev ops : List (HloOp τ sig (Elt F)) :=
  [ StableHlo.nullary main_c (fun i => lit0 (S16.rowMajor i)),
    StableHlo.nullary main_cst (fun i => FloatOps.ofBits .f32 (lit1 (S16x4.rowMajor i))),
    StableHlo.nullary main_cst_0 (constant S_ .f32 0x3FC8F5C3#32),
    StableHlo.unary main_cst_0 main_v0 (broadcastInDim S1048576x4 ![] bcast_S_S1048576x4 : (⟨S_, .f32⟩ : BufTy).Contents (Elt F) → (⟨S1048576x4, .f32⟩ : BufTy).Contents (Elt F)),
    StableHlo.binary main_v0 main_arg0 main_v1 (mulf : (⟨S1048576x4, .f32⟩ : BufTy).Contents (Elt F) → (⟨S1048576x4, .f32⟩ : BufTy).Contents (Elt F) → (⟨S1048576x4, .f32⟩ : BufTy).Contents (Elt F)),
    StableHlo.nullary main_cst_1 (constant S_ .f32 0x3F000000#32),
    StableHlo.unary main_cst_1 main_v2 (broadcastInDim S1048576x4 ![] bcast_S_S1048576x4 : (⟨S_, .f32⟩ : BufTy).Contents (Elt F) → (⟨S1048576x4, .f32⟩ : BufTy).Contents (Elt F)),
    StableHlo.binary main_v2 main_v1 main_v3 (mulf : (⟨S1048576x4, .f32⟩ : BufTy).Contents (Elt F) → (⟨S1048576x4, .f32⟩ : BufTy).Contents (Elt F) → (⟨S1048576x4, .f32⟩ : BufTy).Contents (Elt F)),
    StableHlo.unary main_v3 main_v4 (Host.cos : (⟨S1048576x4, .f32⟩ : BufTy).Contents (Elt F) → (⟨S1048576x4, .f32⟩ : BufTy).Contents (Elt F)),
    StableHlo.unary main_v3 main_v5 (Host.sin : (⟨S1048576x4, .f32⟩ : BufTy).Contents (Elt F) → (⟨S1048576x4, .f32⟩ : BufTy).Contents (Elt F)),
    StableHlo.nullary main_cst_2 (constant S_ .f32 0x3F800000#32),
    StableHlo.unary main_cst_2 main_v6 (broadcastInDim S1048576x1 ![] bcast_S_S1048576x1 : (⟨S_, .f32⟩ : BufTy).Contents (Elt F) → (⟨S1048576x1, .f32⟩ : BufTy).Contents (Elt F)),
    StableHlo.unary main_v4 main_v7 ((extractStridedSlice S1048576x1 ![0, 0] · slices_S1048576x4_S1048576x1_0_0) : (⟨S1048576x4, .f32⟩ : BufTy).Contents (Elt F) → (⟨S1048576x1, .f32⟩ : BufTy).Contents (Elt F)),
    StableHlo.reshape main_v7 main_v8 rfl shapeCasts_S1048576x1_S1048576,
    StableHlo.unary main_v5 main_v9 ((extractStridedSlice S1048576x1 ![0, 0] · slices_S1048576x4_S1048576x1_0_0) : (⟨S1048576x4, .f32⟩ : BufTy).Contents (Elt F) → (⟨S1048576x1, .f32⟩ : BufTy).Contents (Elt F)),
    StableHlo.reshape main_v9 main_v10 rfl shapeCasts_S1048576x1_S1048576,
    StableHlo.unary main_v8 main_v11 (broadcastInDim S1048576x1 ![0] bcast_S1048576_S1048576x1_0 : (⟨S1048576, .f32⟩ : BufTy).Contents (Elt F) → (⟨S1048576x1, .f32⟩ : BufTy).Contents (Elt F)),
    StableHlo.unary main_v10 main_v12 (broadcastInDim S1048576x1 ![0] bcast_S1048576_S1048576x1_0 : (⟨S1048576, .f32⟩ : BufTy).Contents (Elt F) → (⟨S1048576x1, .f32⟩ : BufTy).Contents (Elt F)),
    StableHlo.binary main_v11 main_v12 main_v13 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    StableHlo.unary main_v6 main_v14 (broadcastInDim S1048576x1x1 ![0, 1] bcast_S1048576x1_S1048576x1x1_0_1 : (⟨S1048576x1, .f32⟩ : BufTy).Contents (Elt F) → (⟨S1048576x1x1, .f32⟩ : BufTy).Contents (Elt F)),
    StableHlo.unary main_v13 main_v15 (broadcastInDim S1048576x1x2 ![0, 2] bcast_S1048576x2_S1048576x1x2_0_2 : (⟨S1048576x2, .f32⟩ : BufTy).Contents (Elt F) → (⟨S1048576x1x2, .f32⟩ : BufTy).Contents (Elt F)),
    StableHlo.unary main_v14 main_v16 (broadcastInDim S1048576x1x2 ![0, 1, 2] bcast_S1048576x1x1_S1048576x1x2_0_1_2 : (⟨S1048576x1x1, .f32⟩ : BufTy).Contents (Elt F) → (⟨S1048576x1x2, .f32⟩ : BufTy).Contents (Elt F)),
    StableHlo.binary main_v16 main_v15 main_v17 (mulf : (⟨S1048576x1x2, .f32⟩ : BufTy).Contents (Elt F) → (⟨S1048576x1x2, .f32⟩ : BufTy).Contents (Elt F) → (⟨S1048576x1x2, .f32⟩ : BufTy).Contents (Elt F)),
    StableHlo.reshape main_v17 main_v18 rfl shapeCasts_S1048576x1x2_S1048576x2,
    StableHlo.unary main_v4 main_v19 ((extractStridedSlice S1048576x1 ![0, 1] · slices_S1048576x4_S1048576x1_0_1) : (⟨S1048576x4, .f32⟩ : BufTy).Contents (Elt F) → (⟨S1048576x1, .f32⟩ : BufTy).Contents (Elt F)),
    StableHlo.reshape main_v19 main_v20 rfl shapeCasts_S1048576x1_S1048576,
    StableHlo.unary main_v5 main_v21 ((extractStridedSlice S1048576x1 ![0, 1] · slices_S1048576x4_S1048576x1_0_1) : (⟨S1048576x4, .f32⟩ : BufTy).Contents (Elt F) → (⟨S1048576x1, .f32⟩ : BufTy).Contents (Elt F)),
    StableHlo.reshape main_v21 main_v22 rfl shapeCasts_S1048576x1_S1048576,
    StableHlo.unary main_v20 main_v23 (broadcastInDim S1048576x1 ![0] bcast_S1048576_S1048576x1_0 : (⟨S1048576, .f32⟩ : BufTy).Contents (Elt F) → (⟨S1048576x1, .f32⟩ : BufTy).Contents (Elt F)),
    StableHlo.unary main_v22 main_v24 (broadcastInDim S1048576x1 ![0] bcast_S1048576_S1048576x1_0 : (⟨S1048576, .f32⟩ : BufTy).Contents (Elt F) → (⟨S1048576x1, .f32⟩ : BufTy).Contents (Elt F)),
    StableHlo.binary main_v23 main_v24 main_v25 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    StableHlo.unary main_v18 main_v26 (broadcastInDim S1048576x2x1 ![0, 1] bcast_S1048576x2_S1048576x2x1_0_1 : (⟨S1048576x2, .f32⟩ : BufTy).Contents (Elt F) → (⟨S1048576x2x1, .f32⟩ : BufTy).Contents (Elt F)),
    StableHlo.unary main_v25 main_v27 (broadcastInDim S1048576x1x2 ![0, 2] bcast_S1048576x2_S1048576x1x2_0_2 : (⟨S1048576x2, .f32⟩ : BufTy).Contents (Elt F) → (⟨S1048576x1x2, .f32⟩ : BufTy).Contents (Elt F)),
    StableHlo.unary main_v26 main_v28 (broadcastInDim S1048576x2x2 ![0, 1, 2] bcast_S1048576x2x1_S1048576x2x2_0_1_2 : (⟨S1048576x2x1, .f32⟩ : BufTy).Contents (Elt F) → (⟨S1048576x2x2, .f32⟩ : BufTy).Contents (Elt F)),
    StableHlo.unary main_v27 main_v29 (broadcastInDim S1048576x2x2 ![0, 1, 2] bcast_S1048576x1x2_S1048576x2x2_0_1_2 : (⟨S1048576x1x2, .f32⟩ : BufTy).Contents (Elt F) → (⟨S1048576x2x2, .f32⟩ : BufTy).Contents (Elt F)),
    StableHlo.binary main_v28 main_v29 main_v30 (mulf : (⟨S1048576x2x2, .f32⟩ : BufTy).Contents (Elt F) → (⟨S1048576x2x2, .f32⟩ : BufTy).Contents (Elt F) → (⟨S1048576x2x2, .f32⟩ : BufTy).Contents (Elt F)),
    StableHlo.reshape main_v30 main_v31 rfl shapeCasts_S1048576x2x2_S1048576x4,
    StableHlo.unary main_v4 main_v32 ((extractStridedSlice S1048576x1 ![0, 2] · slices_S1048576x4_S1048576x1_0_2) : (⟨S1048576x4, .f32⟩ : BufTy).Contents (Elt F) → (⟨S1048576x1, .f32⟩ : BufTy).Contents (Elt F)),
    StableHlo.reshape main_v32 main_v33 rfl shapeCasts_S1048576x1_S1048576,
    StableHlo.unary main_v5 main_v34 ((extractStridedSlice S1048576x1 ![0, 2] · slices_S1048576x4_S1048576x1_0_2) : (⟨S1048576x4, .f32⟩ : BufTy).Contents (Elt F) → (⟨S1048576x1, .f32⟩ : BufTy).Contents (Elt F)),
    StableHlo.reshape main_v34 main_v35 rfl shapeCasts_S1048576x1_S1048576,
    StableHlo.unary main_v33 main_v36 (broadcastInDim S1048576x1 ![0] bcast_S1048576_S1048576x1_0 : (⟨S1048576, .f32⟩ : BufTy).Contents (Elt F) → (⟨S1048576x1, .f32⟩ : BufTy).Contents (Elt F)),
    StableHlo.unary main_v35 main_v37 (broadcastInDim S1048576x1 ![0] bcast_S1048576_S1048576x1_0 : (⟨S1048576, .f32⟩ : BufTy).Contents (Elt F) → (⟨S1048576x1, .f32⟩ : BufTy).Contents (Elt F)),
    StableHlo.binary main_v36 main_v37 main_v38 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    StableHlo.unary main_v31 main_v39 (broadcastInDim S1048576x4x1 ![0, 1] bcast_S1048576x4_S1048576x4x1_0_1 : (⟨S1048576x4, .f32⟩ : BufTy).Contents (Elt F) → (⟨S1048576x4x1, .f32⟩ : BufTy).Contents (Elt F)),
    StableHlo.unary main_v38 main_v40 (broadcastInDim S1048576x1x2 ![0, 2] bcast_S1048576x2_S1048576x1x2_0_2 : (⟨S1048576x2, .f32⟩ : BufTy).Contents (Elt F) → (⟨S1048576x1x2, .f32⟩ : BufTy).Contents (Elt F)),
    StableHlo.unary main_v39 main_v41 (broadcastInDim S1048576x4x2 ![0, 1, 2] bcast_S1048576x4x1_S1048576x4x2_0_1_2 : (⟨S1048576x4x1, .f32⟩ : BufTy).Contents (Elt F) → (⟨S1048576x4x2, .f32⟩ : BufTy).Contents (Elt F)),
    StableHlo.unary main_v40 main_v42 (broadcastInDim S1048576x4x2 ![0, 1, 2] bcast_S1048576x1x2_S1048576x4x2_0_1_2 : (⟨S1048576x1x2, .f32⟩ : BufTy).Contents (Elt F) → (⟨S1048576x4x2, .f32⟩ : BufTy).Contents (Elt F)),
    StableHlo.binary main_v41 main_v42 main_v43 (mulf : (⟨S1048576x4x2, .f32⟩ : BufTy).Contents (Elt F) → (⟨S1048576x4x2, .f32⟩ : BufTy).Contents (Elt F) → (⟨S1048576x4x2, .f32⟩ : BufTy).Contents (Elt F)),
    StableHlo.reshape main_v43 main_v44 rfl shapeCasts_S1048576x4x2_S1048576x8,
    StableHlo.unary main_v4 main_v45 ((extractStridedSlice S1048576x1 ![0, 3] · slices_S1048576x4_S1048576x1_0_3) : (⟨S1048576x4, .f32⟩ : BufTy).Contents (Elt F) → (⟨S1048576x1, .f32⟩ : BufTy).Contents (Elt F)),
    StableHlo.reshape main_v45 main_v46 rfl shapeCasts_S1048576x1_S1048576,
    StableHlo.unary main_v5 main_v47 ((extractStridedSlice S1048576x1 ![0, 3] · slices_S1048576x4_S1048576x1_0_3) : (⟨S1048576x4, .f32⟩ : BufTy).Contents (Elt F) → (⟨S1048576x1, .f32⟩ : BufTy).Contents (Elt F)),
    StableHlo.reshape main_v47 main_v48 rfl shapeCasts_S1048576x1_S1048576,
    StableHlo.unary main_v46 main_v49 (broadcastInDim S1048576x1 ![0] bcast_S1048576_S1048576x1_0 : (⟨S1048576, .f32⟩ : BufTy).Contents (Elt F) → (⟨S1048576x1, .f32⟩ : BufTy).Contents (Elt F)),
    StableHlo.unary main_v48 main_v50 (broadcastInDim S1048576x1 ![0] bcast_S1048576_S1048576x1_0 : (⟨S1048576, .f32⟩ : BufTy).Contents (Elt F) → (⟨S1048576x1, .f32⟩ : BufTy).Contents (Elt F)),
    StableHlo.binary main_v49 main_v50 main_v51 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    StableHlo.unary main_v44 main_v52 (broadcastInDim S1048576x8x1 ![0, 1] bcast_S1048576x8_S1048576x8x1_0_1 : (⟨S1048576x8, .f32⟩ : BufTy).Contents (Elt F) → (⟨S1048576x8x1, .f32⟩ : BufTy).Contents (Elt F)),
    StableHlo.unary main_v51 main_v53 (broadcastInDim S1048576x1x2 ![0, 2] bcast_S1048576x2_S1048576x1x2_0_2 : (⟨S1048576x2, .f32⟩ : BufTy).Contents (Elt F) → (⟨S1048576x1x2, .f32⟩ : BufTy).Contents (Elt F)),
    StableHlo.unary main_v52 main_v54 (broadcastInDim S1048576x8x2 ![0, 1, 2] bcast_S1048576x8x1_S1048576x8x2_0_1_2 : (⟨S1048576x8x1, .f32⟩ : BufTy).Contents (Elt F) → (⟨S1048576x8x2, .f32⟩ : BufTy).Contents (Elt F)),
    StableHlo.unary main_v53 main_v55 (broadcastInDim S1048576x8x2 ![0, 1, 2] bcast_S1048576x1x2_S1048576x8x2_0_1_2 : (⟨S1048576x1x2, .f32⟩ : BufTy).Contents (Elt F) → (⟨S1048576x8x2, .f32⟩ : BufTy).Contents (Elt F)),
    StableHlo.binary main_v54 main_v55 main_v56 (mulf : (⟨S1048576x8x2, .f32⟩ : BufTy).Contents (Elt F) → (⟨S1048576x8x2, .f32⟩ : BufTy).Contents (Elt F) → (⟨S1048576x8x2, .f32⟩ : BufTy).Contents (Elt F)),
    StableHlo.reshape main_v56 main_v57 rfl shapeCasts_S1048576x8x2_S1048576x16,
    StableHlo.nullary main_c_3 (constantI S_ 32 0#32),
    StableHlo.unary main_c_3 main_v58 (broadcastInDim S16 ![] bcast_S_S16 : (⟨S_, .i32⟩ : BufTy).Contents (Elt F) → (⟨S16, .i32⟩ : BufTy).Contents (Elt F)),
    StableHlo.binary main_c main_v58 main_v59 (cmpi .slt : (⟨S16, .i32⟩ : BufTy).Contents (Elt F) → (⟨S16, .i32⟩ : BufTy).Contents (Elt F) → (⟨S16, .i1⟩ : BufTy).Contents (Elt F)),
    StableHlo.nullary main_c_4 (constantI S_ 32 16#32),
    StableHlo.unary main_c_4 main_v60 (broadcastInDim S16 ![] bcast_S_S16 : (⟨S_, .i32⟩ : BufTy).Contents (Elt F) → (⟨S16, .i32⟩ : BufTy).Contents (Elt F)),
    StableHlo.binary main_c main_v60 main_v61 (addi : (⟨S16, .i32⟩ : BufTy).Contents (Elt F) → (⟨S16, .i32⟩ : BufTy).Contents (Elt F) → (⟨S16, .i32⟩ : BufTy).Contents (Elt F)),
    StableHlo.ternary main_v59 main_v61 main_c main_v62 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v62 main_v63 (broadcastInDim S16x1 ![0] bcast_S16_S16x1_0 : (⟨S16, .i32⟩ : BufTy).Contents (Elt F) → (⟨S16x1, .i32⟩ : BufTy).Contents (Elt F)),
    StableHlo.binary main_v57 main_v63 main_v64 ((fun x i => Host.gather gather_S1048576x16_S16x1_S1048576x16_0_1_n_n_1_1_10485761 x i) : (⟨S1048576x16, .f32⟩ : BufTy).Contents (Elt F) → (⟨S16x1, .i32⟩ : BufTy).Contents (Elt F) → (⟨S1048576x16, .f32⟩ : BufTy).Contents (Elt F)),
    StableHlo.binary main_v64 main_v64 main_v65 (mulf : (⟨S1048576x16, .f32⟩ : BufTy).Contents (Elt F) → (⟨S1048576x16, .f32⟩ : BufTy).Contents (Elt F) → (⟨S1048576x16, .f32⟩ : BufTy).Contents (Elt F)),
    StableHlo.binary main_v65 main_cst main_v66 ((fun l r => Host.dotGeneral dot_S1048576x16_S16x4_S1048576x4_1_0_0_1_n_n none l r) : (⟨S1048576x16, .f32⟩ : BufTy).Contents (Elt F) → (⟨S16x4, .f32⟩ : BufTy).Contents (Elt F) → (⟨S1048576x4, .f32⟩ : BufTy).Contents (Elt F)) ]

/-- Every operation reads and writes TensorCore buffers only. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., unary_bufs_sub .., unary_bufs_sub .., nullary_bufs_sub .., unary_bufs_sub .., unary_bufs_sub .., reshape_bufs_sub .., unary_bufs_sub .., reshape_bufs_sub .., unary_bufs_sub .., unary_bufs_sub .., binary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

end Cert.ReferenceIdeal.RefRun

end
-- ==== Proof.RefRun.lean ====
/-
  The reference's run, read back. Its @main is a straight line of host operations; every weakly fair execution
  ends with the result buffer at the composition of those operations' functions over the argument array, the
  argument unchanged. The composition is named here stage by stage, following the reference's mathematics:

    half x      = 1/2 · (1.57 · x)                      the half-angles, entry by entry
    cosx, sinx  = cos and sin of the half-angles
    pair q x    = the two columns (cos, sin) of qubit q, side by side: a [B, 2] array
    amp1 … amp4 = the product-state amplitudes over the first 1 … 4 qubits: amp(k+1)[b, 2j + d] = amp k[b, j] · pair k[b, d],
                  starting from the all-ones column
    state x     = amp4 with its 16 columns permuted by the ring of controlled-NOTs (a gather along axis 1)
    probs x     = the squares of the permuted amplitudes
    out x       = probs x contracted with the 16 × 4 table of the Pauli-Z eigenvalues ±1
-/
import proofs.«148952_j23115513987349_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the reference, as functions of the argument array -/

/-- The half-angles: one half times (1.57 times the input), entry by entry. -/
def half (x : FVec F S1048576x4 .f32) : FVec F S1048576x4 .f32 :=
  mulf (broadcastInDim S1048576x4 ![] bcast_S_S1048576x4 (constant S_ .f32 0x3F000000#32))
    (mulf (broadcastInDim S1048576x4 ![] bcast_S_S1048576x4 (constant S_ .f32 0x3FC8F5C3#32)) x)

/-- The cosines of the half-angles. -/
def cosx (x : FVec F S1048576x4 .f32) : FVec F S1048576x4 .f32 := Host.cos (half x)

/-- The sines of the half-angles. -/
def sinx (x : FVec F S1048576x4 .f32) : FVec F S1048576x4 .f32 := Host.sin (half x)

/-- One column of a [B, 4] array, cut out, flattened and stood up again as a [B, 1] column. -/
def colOf (off : Fin 2 → Nat) (h : S1048576x4.Slices off S1048576x1) (v : FVec F S1048576x4 .f32) : FVec F S1048576x1 .f32 :=
  broadcastInDim S1048576x1 ![0] bcast_S1048576_S1048576x1_0
    (shapeCast S1048576 (extractStridedSlice S1048576x1 off v h) shapeCasts_S1048576x1_S1048576)

/-- Qubit q's two amplitudes, cos then sin of its half-angle, side by side. -/
def pair (off : Fin 2 → Nat) (h : S1048576x4.Slices off S1048576x1) (x : FVec F S1048576x4 .f32) : FVec F S1048576x2 .f32 :=
  concatenate S1048576x2 1 [⟨S1048576x1, colOf off h (cosx x)⟩, ⟨S1048576x1, colOf off h (sinx x)⟩]
    concatenates_S1048576x1_S1048576x1_S1048576x2_d1

/-- The all-ones column the product starts from. -/
def ones : FVec F S1048576x1 .f32 := broadcastInDim S1048576x1 ![] bcast_S_S1048576x1 (constant S_ .f32 0x3F800000#32)

/-- Amplitudes over the first qubit: ones times qubit 0's pair. -/
def amp1 (x : FVec F S1048576x4 .f32) : FVec F S1048576x2 .f32 :=
  shapeCast S1048576x2
    (mulf (broadcastInDim S1048576x1x2 ![0, 1, 2] bcast_S1048576x1x1_S1048576x1x2_0_1_2
            (broadcastInDim S1048576x1x1 ![0, 1] bcast_S1048576x1_S1048576x1x1_0_1 ones))
          (broadcastInDim S1048576x1x2 ![0, 2] bcast_S1048576x2_S1048576x1x2_0_2 (pair ![0, 0] slices_S1048576x4_S1048576x1_0_0 x)))
    shapeCasts_S1048576x1x2_S1048576x2

/-- Amplitudes over the first two qubits. -/
def amp2 (x : FVec F S1048576x4 .f32) : FVec F S1048576x4 .f32 :=
  shapeCast S1048576x4
    (mulf (broadcastInDim S1048576x2x2 ![0, 1, 2] bcast_S1048576x2x1_S1048576x2x2_0_1_2
            (broadcastInDim S1048576x2x1 ![0, 1] bcast_S1048576x2_S1048576x2x1_0_1 (amp1 x)))
          (broadcastInDim S1048576x2x2 ![0, 1, 2] bcast_S1048576x1x2_S1048576x2x2_0_1_2
            (broadcastInDim S1048576x1x2 ![0, 2] bcast_S1048576x2_S1048576x1x2_0_2 (pair ![0, 1] slices_S1048576x4_S1048576x1_0_1 x))))
    shapeCasts_S1048576x2x2_S1048576x4

/-- Amplitudes over the first three qubits. -/
def amp3 (x : FVec F S1048576x4 .f32) : FVec F S1048576x8 .f32 :=
  shapeCast S1048576x8
    (mulf (broadcastInDim S1048576x4x2 ![0, 1, 2] bcast_S1048576x4x1_S1048576x4x2_0_1_2
            (broadcastInDim S1048576x4x1 ![0, 1] bcast_S1048576x4_S1048576x4x1_0_1 (amp2 x)))
          (broadcastInDim S1048576x4x2 ![0, 1, 2] bcast_S1048576x1x2_S1048576x4x2_0_1_2
            (broadcastInDim S1048576x1x2 ![0, 2] bcast_S1048576x2_S1048576x1x2_0_2 (pair ![0, 2] slices_S1048576x4_S1048576x1_0_2 x))))
    shapeCasts_S1048576x4x2_S1048576x8

/-- Amplitudes over all four qubits: sixteen per row. -/
def amp4 (x : FVec F S1048576x4 .f32) : FVec F S1048576x16 .f32 :=
  shapeCast S1048576x16
    (mulf (broadcastInDim S1048576x8x2 ![0, 1, 2] bcast_S1048576x8x1_S1048576x8x2_0_1_2
            (broadcastInDim S1048576x8x1 ![0, 1] bcast_S1048576x8_S1048576x8x1_0_1 (amp3 x)))
          (broadcastInDim S1048576x8x2 ![0, 1, 2] bcast_S1048576x1x2_S1048576x8x2_0_1_2
            (broadcastInDim S1048576x1x2 ![0, 2] bcast_S1048576x2_S1048576x1x2_0_2 (pair ![0, 3] slices_S1048576x4_S1048576x1_0_3 x))))
    shapeCasts_S1048576x8x2_S1048576x16

/-- The basis permutation of the ring of controlled-NOTs, as the table the program spells. -/
def permTable : IVec S16 32 := fun i => lit0 (S16.rowMajor i)

/-- The gather's start indices: the permutation, a negative entry wrapped by 16 (none is), as a [16, 1] column. -/
def permIdx : IVec S16x1 32 :=
  broadcastInDim S16x1 ![0] bcast_S16_S16x1_0
    (select (cmpi .slt permTable (broadcastInDim S16 ![] bcast_S_S16 (constantI S_ 32 0#32)))
      (addi permTable (broadcastInDim S16 ![] bcast_S_S16 (constantI S_ 32 16#32))) permTable)

/-- The amplitudes after the ring of controlled-NOTs: amp4's columns permuted. -/
def state (x : FVec F S1048576x4 .f32) : FVec F S1048576x16 .f32 :=
  Host.gather gather_S1048576x16_S16x1_S1048576x16_0_1_n_n_1_1_10485761 (amp4 x) permIdx

/-- The probabilities: the amplitudes squared. -/
def probs (x : FVec F S1048576x4 .f32) : FVec F S1048576x16 .f32 := mulf (state x) (state x)

/-- The table of Pauli-Z eigenvalues: entry (k, i) is +1 or −1 by bit i of basis state k. -/
def zTable : FVec F S16x4 .f32 := fun i => FloatOps.ofBits .f32 (lit1 (S16x4.rowMajor i))

/-- The expectation values: the probabilities contracted with the eigenvalue table. -/
def out (x : FVec F S1048576x4 .f32) : FVec F S1048576x4 .f32 :=
  Host.dotGeneral dot_S1048576x16_S16x4_S1048576x4_1_0_0_1_n_n none (probs x) zTable

/-! ## The run -/

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- The result buffer after the operations, from any contents, is `out` of the argument's contents. -/
theorem after_result (V : Valuation τ sig (Elt F)) :
    after (ops (F := F)) V (Proc.devRef .tc main_v66) = out (V (Proc.devRef .tc main_arg0)) := by
  after_results_simp
  rfl

/-- No operation writes the argument. -/
theorem after_arg (V : Valuation τ sig (Elt F)) :
    after (ops (F := F)) V (Proc.devRef .tc main_arg0) = V (Proc.devRef .tc main_arg0) := by
  after_results_simp

/-- On every device, from any memory with zero counters: every weakly fair execution of the reference terminates
    with its result at `out` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = out (m ((c.tc : Thread nD τ).loc main_arg0))
      ∧ r.2.mem ((c.tc : Thread nD τ).loc main_arg0) = m ((c.tc : Thread nD τ).loc main_arg0) :=
  (θ_run defs _ _).mono (fun _ h c => ⟨(h c main_v66).trans (after_result _), (h c main_arg0).trans (after_arg _)⟩)
    (run_seq scopedRefs_eq scopedSems_eq defs main (fun _ => ops) main_eq (fun _ => ops_sub) m ρ)

end Cert.ReferenceIdeal.RefRun

end
-- ==== Proof.RefValue.lean ====
/-
  The reference's result, read entry by entry.

  Every stage of the reference (`RefRun`) is a layout operation or an entry-wise product, so each is read at an index:
    half x (b, q)   = 1/2 · (1.57 · x (b, q));  cosx, sinx its cosine and sine;
    pair q x (b, d) = the cosine (d = 0) or the sine (d = 1) of qubit q's half-angle in row b;
    amp1 x (b, j)   = 1 · pair 0 x (b, j);   amp (k+1) x (b, j) = amp k x (b, j / 2) · pair k x (b, j mod 2)
                      (the reshape [B, n, 2] → [B, 2n] puts (p, d) at column 2p + d);
    state x (b, k)  = amp4 x (b, perm k)      (the gather along axis 1, its start indices the permutation table);
    probs x (b, k)  = (state x (b, k))²;
    out x (b, i)    = ∑ₖ probs x (b, k) · Z (k, i)   (the contraction over the sixteen basis states).
  Together: entry (b, i) of the result is `Cert.Spec.refRow` of row b of the argument, at i.
-/
import proofs.«148952_j23115513987349_1_alg».proof.Proof.RefRun
import proofs.«148952_j23115513987349_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx

/-- Row b of a [B, 4] array: its four entries. -/
abbrev row (x : FVec Ideal S1048576x4 .f32) (b : Fin 1048576) : Fin 4 → EReal := fun q => x (ix2 b q)

/-! ## The half-angles and their cosines and sines -/

/-- A scalar constant broadcast to any shape reads the constant's value everywhere. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w :=
  (broadcastInDim_apply ![] h _ j ix0 (fun a => a.elim0)).trans rfl

theorem half_apply (x : FVec Ideal S1048576x4 .f32) (j : S1048576x4.Idx) :
    half x j = Ideal.ofBits .f32 0x3F000000#32 * (Ideal.ofBits .f32 0x3FC8F5C3#32 * x j) := by
  unfold half
  rw [mulf_apply, mulf_apply, splat_apply, splat_apply]

theorem cosx_apply (x : FVec Ideal S1048576x4 .f32) (j : S1048576x4.Idx) : cosx x j = Ideal.cos (half x j) := rfl
theorem sinx_apply (x : FVec Ideal S1048576x4 .f32) (j : S1048576x4.Idx) : sinx x j = Ideal.sin (half x j) := rfl

/-! ## One qubit's pair of factors -/

/-- Column k of a [B, 4] array, cut out, flattened and stood up again, read at row b: the array at (b, k). -/
theorem colOf_apply (k : Nat) (hk : k < 4) (h : S1048576x4.Slices ![0, k] S1048576x1) (v : FVec Ideal S1048576x4 .f32) (b : Fin 1048576) :
    colOf ![0, k] h v (ix2 b 0) = v (ix2 b ⟨k, hk⟩) := by
  unfold colOf
  refine (broadcastInDim_apply ![0] bcast_S1048576_S1048576x1_0 _ (ix2 b 0) (ix1 b)
    (fun a => by match a with | ⟨0, _⟩ => rfl)).trans ?_
  refine (shapeCast_apply _ shapeCasts_S1048576x1_S1048576 (ix1 b) (ix2 b 0)
    (by rw [Shape.rowMajor_val_two, Shape.rowMajor_val_one]; show b.val * 1 + 0 = b.val; omega)).trans ?_
  exact extractStridedSlice_apply ![0, k] v h (ix2 b 0) (ix2 b ⟨k, hk⟩) (fun a => by
    match a with
    | ⟨0, _⟩ => show b.val = 0 + b.val; omega
    | ⟨1, _⟩ => show k = k + 0; omega)

/-- Qubit k's pair at (b, d): the cosine of its half-angle for d = 0, the sine for d = 1. -/
theorem pair_apply (k : Nat) (hk : k < 4) (h : S1048576x4.Slices ![0, k] S1048576x1) (x : FVec Ideal S1048576x4 .f32)
    (b : Fin 1048576) (d : Fin 2) :
    pair ![0, k] h x (ix2 b d) = Cert.Spec.refPr (row x b) ⟨k, hk⟩ d := by
  unfold pair
  fin_cases d
  · refine (concatenate_pair_apply_left (t := S1048576x2) (s₁ := S1048576x1) (s₂ := S1048576x1) (1 : Fin 2) _ _
      concatenates_S1048576x1_S1048576x1_S1048576x2_d1 (ix2 b (0 : Fin 2)) rfl (ix2 b (0 : Fin 1))
      (fun a => by match a with | ⟨0, _⟩ => rfl | ⟨1, _⟩ => rfl)).trans ?_
    rw [colOf_apply k hk h _ b, cosx_apply, half_apply]
    rfl
  · refine (concatenate_pair_apply_right (t := S1048576x2) (s₁ := S1048576x1) (s₂ := S1048576x1) (1 : Fin 2) _ _
      concatenates_S1048576x1_S1048576x1_S1048576x2_d1 (ix2 b (1 : Fin 2)) rfl rfl (ix2 b (0 : Fin 1))
      (fun a ha => by
        match a with
        | ⟨0, _⟩ => rfl
        | ⟨1, _⟩ => exact absurd rfl ha)
      (by show 0 + 1 = 1; rfl)).trans ?_
    rw [colOf_apply k hk h _ b, sinx_apply, half_apply]
    rfl

/-! ## The amplitudes, qubit by qubit -/

theorem ones_apply (j : S1048576x1.Idx) : ones (F := Ideal) j = Ideal.ofBits .f32 0x3F800000#32 := splat_apply _ _ j

theorem amp1_apply (x : FVec Ideal S1048576x4 .f32) (b : Fin 1048576) (j : Fin 2) :
    amp1 x (ix2 b j) = Cert.Spec.refA1 (Cert.Spec.refPr (row x b)) j := by
  unfold amp1
  refine (shapeCast_apply _ shapeCasts_S1048576x1x2_S1048576x2 (ix2 b j) (ix3 b 0 j)
    (by rw [Shape.rowMajor_val_three, Shape.rowMajor_val_two]
        show (b.val * 1 + 0) * 2 + j.val = b.val * 2 + j.val; omega)).trans ?_
  rw [mulf_apply]
  rw [broadcastInDim_apply ![0, 1, 2] bcast_S1048576x1x1_S1048576x1x2_0_1_2 _ (ix3 b 0 j) (ix3 b 0 0)
    (fun a => by match a with | ⟨0, _⟩ => rfl | ⟨1, _⟩ => rfl | ⟨2, _⟩ => rfl)]
  rw [broadcastInDim_apply ![0, 1] bcast_S1048576x1_S1048576x1x1_0_1 _ (ix3 b 0 0) (ix2 b 0)
    (fun a => by match a with | ⟨0, _⟩ => rfl | ⟨1, _⟩ => rfl)]
  rw [broadcastInDim_apply ![0, 2] bcast_S1048576x2_S1048576x1x2_0_2 _ (ix3 b 0 j) (ix2 b j)
    (fun a => by match a with | ⟨0, _⟩ => rfl | ⟨1, _⟩ => rfl)]
  rw [ones_apply, pair_apply 0 (by omega)]
  rfl

theorem amp2_apply (x : FVec Ideal S1048576x4 .f32) (b : Fin 1048576) (j : Fin 4) :
    amp2 x (ix2 b j) = Cert.Spec.refA2 (Cert.Spec.refPr (row x b)) j := by
  have hj : j.val < 4 := j.isLt
  unfold amp2
  refine (shapeCast_apply _ shapeCasts_S1048576x2x2_S1048576x4 (ix2 b j) (ix3 b ⟨j.val / 2, by omega⟩ ⟨j.val % 2, by omega⟩)
    (by rw [Shape.rowMajor_val_three, Shape.rowMajor_val_two]
        show (b.val * 2 + j.val / 2) * 2 + j.val % 2 = b.val * 4 + j.val; omega)).trans ?_
  rw [mulf_apply]
  rw [broadcastInDim_apply ![0, 1, 2] bcast_S1048576x2x1_S1048576x2x2_0_1_2 _ (ix3 b ⟨j.val / 2, by omega⟩ ⟨j.val % 2, by omega⟩) (ix3 b ⟨j.val / 2, by omega⟩ 0)
    (fun a => by match a with | ⟨0, _⟩ => rfl | ⟨1, _⟩ => rfl | ⟨2, _⟩ => rfl)]
  rw [broadcastInDim_apply ![0, 1] bcast_S1048576x2_S1048576x2x1_0_1 _ (ix3 b ⟨j.val / 2, by omega⟩ 0) (ix2 b ⟨j.val / 2, by omega⟩)
    (fun a => by match a with | ⟨0, _⟩ => rfl | ⟨1, _⟩ => rfl)]
  rw [broadcastInDim_apply ![0, 1, 2] bcast_S1048576x1x2_S1048576x2x2_0_1_2 _ (ix3 b ⟨j.val / 2, by omega⟩ ⟨j.val % 2, by omega⟩) (ix3 b 0 ⟨j.val % 2, by omega⟩)
    (fun a => by match a with | ⟨0, _⟩ => rfl | ⟨1, _⟩ => rfl | ⟨2, _⟩ => rfl)]
  rw [broadcastInDim_apply ![0, 2] bcast_S1048576x2_S1048576x1x2_0_2 _ (ix3 b 0 ⟨j.val % 2, by omega⟩) (ix2 b ⟨j.val % 2, by omega⟩)
    (fun a => by match a with | ⟨0, _⟩ => rfl | ⟨1, _⟩ => rfl)]
  rw [amp1_apply, pair_apply 1 (by omega)]
  rfl

theorem amp3_apply (x : FVec Ideal S1048576x4 .f32) (b : Fin 1048576) (j : Fin 8) :
    amp3 x (ix2 b j) = Cert.Spec.refA3 (Cert.Spec.refPr (row x b)) j := by
  have hj : j.val < 8 := j.isLt
  unfold amp3
  refine (shapeCast_apply _ shapeCasts_S1048576x4x2_S1048576x8 (ix2 b j) (ix3 b ⟨j.val / 2, by omega⟩ ⟨j.val % 2, by omega⟩)
    (by rw [Shape.rowMajor_val_three, Shape.rowMajor_val_two]
        show (b.val * 4 + j.val / 2) * 2 + j.val % 2 = b.val * 8 + j.val; omega)).trans ?_
  rw [mulf_apply]
  rw [broadcastInDim_apply ![0, 1, 2] bcast_S1048576x4x1_S1048576x4x2_0_1_2 _ (ix3 b ⟨j.val / 2, by omega⟩ ⟨j.val % 2, by omega⟩) (ix3 b ⟨j.val / 2, by omega⟩ 0)
    (fun a => by match a with | ⟨0, _⟩ => rfl | ⟨1, _⟩ => rfl | ⟨2, _⟩ => rfl)]
  rw [broadcastInDim_apply ![0, 1] bcast_S1048576x4_S1048576x4x1_0_1 _ (ix3 b ⟨j.val / 2, by omega⟩ 0) (ix2 b ⟨j.val / 2, by omega⟩)
    (fun a => by match a with | ⟨0, _⟩ => rfl | ⟨1, _⟩ => rfl)]
  rw [broadcastInDim_apply ![0, 1, 2] bcast_S1048576x1x2_S1048576x4x2_0_1_2 _ (ix3 b ⟨j.val / 2, by omega⟩ ⟨j.val % 2, by omega⟩) (ix3 b 0 ⟨j.val % 2, by omega⟩)
    (fun a => by match a with | ⟨0, _⟩ => rfl | ⟨1, _⟩ => rfl | ⟨2, _⟩ => rfl)]
  rw [broadcastInDim_apply ![0, 2] bcast_S1048576x2_S1048576x1x2_0_2 _ (ix3 b 0 ⟨j.val % 2, by omega⟩) (ix2 b ⟨j.val % 2, by omega⟩)
    (fun a => by match a with | ⟨0, _⟩ => rfl | ⟨1, _⟩ => rfl)]
  rw [amp2_apply, pair_apply 2 (by omega)]
  rfl

theorem amp4_apply (x : FVec Ideal S1048576x4 .f32) (b : Fin 1048576) (j : Fin 16) :
    amp4 x (ix2 b j) = Cert.Spec.refA4 (Cert.Spec.refPr (row x b)) j := by
  have hj : j.val < 16 := j.isLt
  unfold amp4
  refine (shapeCast_apply _ shapeCasts_S1048576x8x2_S1048576x16 (ix2 b j) (ix3 b ⟨j.val / 2, by omega⟩ ⟨j.val % 2, by omega⟩)
    (by rw [Shape.rowMajor_val_three, Shape.rowMajor_val_two]
        show (b.val * 8 + j.val / 2) * 2 + j.val % 2 = b.val * 16 + j.val; omega)).trans ?_
  rw [mulf_apply]
  rw [broadcastInDim_apply ![0, 1, 2] bcast_S1048576x8x1_S1048576x8x2_0_1_2 _ (ix3 b ⟨j.val / 2, by omega⟩ ⟨j.val % 2, by omega⟩) (ix3 b ⟨j.val / 2, by omega⟩ 0)
    (fun a => by match a with | ⟨0, _⟩ => rfl | ⟨1, _⟩ => rfl | ⟨2, _⟩ => rfl)]
  rw [broadcastInDim_apply ![0, 1] bcast_S1048576x8_S1048576x8x1_0_1 _ (ix3 b ⟨j.val / 2, by omega⟩ 0) (ix2 b ⟨j.val / 2, by omega⟩)
    (fun a => by match a with | ⟨0, _⟩ => rfl | ⟨1, _⟩ => rfl)]
  rw [broadcastInDim_apply ![0, 1, 2] bcast_S1048576x1x2_S1048576x8x2_0_1_2 _ (ix3 b ⟨j.val / 2, by omega⟩ ⟨j.val % 2, by omega⟩) (ix3 b 0 ⟨j.val % 2, by omega⟩)
    (fun a => by match a with | ⟨0, _⟩ => rfl | ⟨1, _⟩ => rfl | ⟨2, _⟩ => rfl)]
  rw [broadcastInDim_apply ![0, 2] bcast_S1048576x2_S1048576x1x2_0_2 _ (ix3 b 0 ⟨j.val % 2, by omega⟩) (ix2 b ⟨j.val % 2, by omega⟩)
    (fun a => by match a with | ⟨0, _⟩ => rfl | ⟨1, _⟩ => rfl)]
  rw [amp3_apply, pair_apply 3 (by omega)]
  rfl

/-! ## The permutation: the gather along axis 1 -/

/-- The gather keeps the row and reads the column the start index names (signed, clamped into 0 … 15). -/
theorem gather_apply {α : Type} {w : Nat} (x : S1048576x16.Idx → α) (idx : IVec S16x1 w) (b : Fin 1048576) (k : Fin 16) :
    Host.gather gather_S1048576x16_S16x1_S1048576x16_0_1_n_n_1_1_10485761 x idx (ix2 b k)
      = x (ix2 b ⟨min (idx (ix2 k 0)).toInt.toNat 15, by omega⟩) := by
  unfold Host.gather
  congr 1
  funext a
  refine Fin.ext ?_
  match a with
  | ⟨0, _⟩ =>
    show GatherDims.start _ (ix2 b k) idx 0 + GatherDims.batchCoord _ (ix2 b k) 0 + GatherDims.offCoord _ (ix2 b k) 0 = b.val
    rw [GatherDims.batchCoord_eq_zero _ _ _ List.not_mem_nil]
    unfold GatherDims.start
    rw [dif_neg (by decide)]
    unfold GatherDims.offCoord
    rw [dif_pos (by decide)]
    show 0 + 0 + b.val = b.val
    omega
  | ⟨1, _⟩ =>
    show GatherDims.start _ (ix2 b k) idx 1 + GatherDims.batchCoord _ (ix2 b k) 1 + GatherDims.offCoord _ (ix2 b k) 1 = min (idx (ix2 k 0)).toInt.toNat 15
    rw [GatherDims.batchCoord_eq_zero _ _ _ List.not_mem_nil, GatherDims.offCoord_eq_zero _ _ _ (by decide)]
    unfold GatherDims.start
    rw [dif_pos (by decide)]
    have hsi : GatherDims.siIdx gather_S1048576x16_S16x1_S1048576x16_0_1_n_n_1_1_10485761 (ix2 b k)
        ⟨List.idxOf (1 : Fin 2) gather_S1048576x16_S16x1_S1048576x16_0_1_n_n_1_1_10485761.startIndexMap,
          List.idxOf_lt_length_iff.2 (by decide)⟩ = ix2 k 0 := by
      funext c; refine Fin.ext ?_
      match c with
      | ⟨0, _⟩ => rfl
      | ⟨1, _⟩ => rfl
    rw [hsi]
    rfl

/-- The start indices are the permutation of the ring of controlled-NOTs. -/
theorem perm_eq (k : Fin 16) : min (permIdx (ix2 k 0)).toInt.toNat 15 = (Cert.Spec.perm k).val := by
  fin_cases k <;> rfl

theorem state_apply (x : FVec Ideal S1048576x4 .f32) (b : Fin 1048576) (k : Fin 16) :
    state x (ix2 b k) = Cert.Spec.refA4 (Cert.Spec.refPr (row x b)) (Cert.Spec.perm k) := by
  unfold state
  rw [gather_apply]
  have : (⟨min (permIdx (ix2 k 0)).toInt.toNat 15, by omega⟩ : Fin 16) = Cert.Spec.perm k := Fin.ext (perm_eq k)
  rw [this, amp4_apply]

/-! ## The contraction with the table of signs -/

/-- The table's entry (k, i) is the sign of basis state k under Pauli-Z on qubit i. -/
theorem zTable_apply (k : Fin 16) (i : Fin 4) : zTable (F := Ideal) (ix2 k i) = Cert.Spec.zsign k i := by
  fin_cases k <;> fin_cases i <;>
    first
      | exact Cert.Spec.ofBits_one
      | exact Cert.Spec.ofBits_neg_one

theorem lhs_0 (i : S1048576x4.Idx) (q : dot_S1048576x16_S16x4_S1048576x4_1_0_0_1_n_n.contr.Idx) :
    (dot_S1048576x16_S16x4_S1048576x4_1_0_0_1_n_n.lhsIdx i q 0).val = (i 0).val := by
  unfold DotDims.lhsIdx
  rw [dif_neg (show ¬(0 : Fin S1048576x16.rank) ∈ dot_S1048576x16_S16x4_S1048576x4_1_0_0_1_n_n.lhsBatch by decide),
    dif_pos (show (0 : Fin S1048576x16.rank) ∈ dot_S1048576x16_S16x4_S1048576x4_1_0_0_1_n_n.lhsNonContracting by decide)]
  rfl

theorem lhs_1 (i : S1048576x4.Idx) (q : dot_S1048576x16_S16x4_S1048576x4_1_0_0_1_n_n.contr.Idx) :
    (dot_S1048576x16_S16x4_S1048576x4_1_0_0_1_n_n.lhsIdx i q 1).val = (q ⟨0, by decide⟩).val :=
  dot_S1048576x16_S16x4_S1048576x4_1_0_0_1_n_n.lhsIdx_val_of_single rfl i q

theorem rhs_0 (i : S1048576x4.Idx) (q : dot_S1048576x16_S16x4_S1048576x4_1_0_0_1_n_n.contr.Idx) :
    (dot_S1048576x16_S16x4_S1048576x4_1_0_0_1_n_n.rhsIdx i q 0).val = (q ⟨0, by decide⟩).val :=
  dot_S1048576x16_S16x4_S1048576x4_1_0_0_1_n_n.rhsIdx_val_of_single rfl i q

theorem rhs_1 (i : S1048576x4.Idx) (q : dot_S1048576x16_S16x4_S1048576x4_1_0_0_1_n_n.contr.Idx) :
    (dot_S1048576x16_S16x4_S1048576x4_1_0_0_1_n_n.rhsIdx i q 1).val = (i 1).val := by
  unfold DotDims.rhsIdx
  rw [dif_neg (show ¬(1 : Fin S16x4.rank) ∈ dot_S1048576x16_S16x4_S1048576x4_1_0_0_1_n_n.rhsBatch by decide),
    dif_pos (show (1 : Fin S16x4.rank) ∈ dot_S1048576x16_S16x4_S1048576x4_1_0_0_1_n_n.rhsNonContracting by decide)]
  rfl

/-- Entry (b, i) of the reference's result: the reference's signed sum over row b of the argument, at i. -/
theorem out_apply (x : FVec Ideal S1048576x4 .f32) (b : Fin 1048576) (i : Fin 4) :
    out x (ix2 b i) = Cert.Spec.refRow (row x b) i := by
  unfold out Cert.Spec.refRow
  simp only [Host.dotGeneral]
  rw [Ideal.dotGeneral_apply, ← Equiv.sum_comp (contrEquiv1 dot_S1048576x16_S16x4_S1048576x4_1_0_0_1_n_n 16 rfl rfl).symm]
  refine Finset.sum_congr rfl fun k _ => ?_
  have hk := contrEquiv1_symm_val dot_S1048576x16_S16x4_S1048576x4_1_0_0_1_n_n 16 rfl rfl k
  have el : dot_S1048576x16_S16x4_S1048576x4_1_0_0_1_n_n.lhsIdx (ix2 b i)
      ((contrEquiv1 dot_S1048576x16_S16x4_S1048576x4_1_0_0_1_n_n 16 rfl rfl).symm k) = ix2 b k := funext fun a => Fin.ext (by
    match a with
    | ⟨0, _⟩ => exact lhs_0 _ _
    | ⟨1, _⟩ => exact (lhs_1 _ _).trans hk)
  have er : dot_S1048576x16_S16x4_S1048576x4_1_0_0_1_n_n.rhsIdx (ix2 b i)
      ((contrEquiv1 dot_S1048576x16_S16x4_S1048576x4_1_0_0_1_n_n 16 rfl rfl).symm k) = ix2 k i := funext fun a => Fin.ext (by
    match a with
    | ⟨0, _⟩ => exact (rhs_0 _ _).trans hk
    | ⟨1, _⟩ => exact rhs_1 _ _)
  rw [el, er]
  unfold probs
  rw [mulf_apply, state_apply, zTable_apply]

/-- The reference's result array is `Cert.Spec.refRow` of each row of the argument. -/
theorem out_eq (x : FVec Ideal S1048576x4 .f32) (j : S1048576x4.Idx) :
    out x j = Cert.Spec.refRow (fun q => x (ix2 ⟨(j 0).val, idx2_lt0 j⟩ q)) ⟨(j 1).val, idx2_lt1 j⟩ := by
  obtain ⟨b, i, rfl⟩ : ∃ (b : Fin 1048576) (i : Fin 4), j = ix2 b i := ⟨j 0, j 1, eq_ix2 j⟩
  exact out_apply x b i

end Cert.ReferenceIdeal.RefValue

end
-- ==== Proof.lean ====
/-
  The certificate: a four-qubit circuit's Pauli-Z expectation values, computed row by row by a pipelined kernel, against
  the plain array program.

  Each row of the input holds four angles. Both programs rotate qubit q by its angle (amplitudes cos and sin of the scaled
  half-angle), form the sixteen product-state amplitudes, permute the basis by the ring of controlled-NOTs, square, and
  take for each qubit the sum of the probabilities signed by that qubit's bit.

  * The three frames. The kernel's two (as printed, and idealized) are the generated frame certificates. The reference is
    a straight line of host operations: its run (Proof/RefRun.lean) ends with the argument unchanged.
  * The idealization rewrote nothing, so there is nothing to preserve.
  * The values agree at the extended reals. The kernel's result array is `KerValue.G` of its argument (Proof/KernelValue.lean:
    entry (b, n) is `Spec.kerRow` of row b, at n); the reference's result read at (b, i) is `Spec.refRow` of row b, at i
    (Proof/RefValue.lean); and `Spec.refRow = Spec.kerRow` (Proof/Spec.lean) by associativity of the product, the unit laws,
    a · (−1) = −a, 0 − a = −a, and the exact identity  (1/2) · 1.57 = 0.785  between the three binary literals. No finiteness
    of the input is needed: every law used holds on all extended reals.
-/
import proofs.«148952_j23115513987349_1_alg».proof.Defs
import proofs.«148952_j23115513987349_1_alg».proof.Proof.Gen.Kernel
import proofs.«148952_j23115513987349_1_alg».proof.Proof.Gen.Kernel.Frame
import proofs.«148952_j23115513987349_1_alg».proof.Proof.Gen.KernelIdeal
import proofs.«148952_j23115513987349_1_alg».proof.Proof.Gen.KernelIdeal.Frame
import proofs.«148952_j23115513987349_1_alg».proof.Proof.Gen.KernelIdeal.Value
import proofs.«148952_j23115513987349_1_alg».proof.Proof.Gen.ReferenceIdeal
import proofs.«148952_j23115513987349_1_alg».proof.Proof.Gen.Pre_finite_inputs
import proofs.«148952_j23115513987349_1_alg».proof.Proof.KernelValue
import proofs.«148952_j23115513987349_1_alg».proof.Proof.RefValue
import Idealize.ShloMosaic.Adequacy
import Idealize.ShloMosaic.Init

noncomputable section

namespace Cert.Proof

open Idealize.ShloMosaic Idealize.SL.Sem

/-- The printed kernel runs and leaves its argument as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument as launched: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From arguments that agree, the idealized kernel ends at `G` of the argument and the reference at its `out`; row by row
    these are the kernel's and the reference's signed sums, which are equal. -/
theorem algebraic : Cert.algebraic_KernelIdeal_ReferenceIdeal := by
  intro m ρ m' ρ' _ hagree
  refine ⟨fun c => Cert.KernelIdeal.KerValue.G (m ((c.tc : Thread Cert.KernelIdeal.nD Cert.KernelIdeal.τ).loc Cert.KernelIdeal.main_arg0)),
    Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  funext j
  rw [Cert.ReferenceIdeal.RefValue.out_eq]
  exact Cert.Spec.refRow_eq_kerRow _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
